-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3072 : Shape := ⟨2, ![8192, 3072]⟩
abbrev S8192x768 : Shape := ⟨2, ![8192, 768]⟩
abbrev S3840x64 : Shape := ⟨2, ![3840, 64]⟩
abbrev S64 : Shape := ⟨1, ![64]⟩
abbrev S_ : Shape := ⟨0, ![]⟩

class Facts : Prop where
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S8192x768 : S_.BroadcastsInDim S8192x768 (![] : Fin 0 → Fin S8192x768.rank)
  reducesTo_S8192x768_S_d0_1 : S8192x768.ReducesTo [0, 1] S_
  bcast_S_S3840x64 : S_.BroadcastsInDim S3840x64 (![] : Fin 0 → Fin S3840x64.rank)
  reducesTo_S3840x64_S_d0_1 : S3840x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S8192x3072 .f32) (main_arg1 : FVec F S8192x768 .f32) (main_arg2 : FVec F S3840x64 .f32) (main_arg3 : FVec F S64 .f32) : IVec S_ 1 :=
  let main_v0 : FVec F S8192x3072 .f32 := Host.absf main_arg0
  let main_cst : FVec F S_ .f32 := constant S_ .f32 0x7F800000#32
  let main_v1 : FVec F S8192x3072 .f32 := broadcastInDim S8192x3072 ![] bcast_S_S8192x3072 main_cst
  let main_v2 : IVec S8192x3072 1 := cmpf .olt main_v0 main_v1
  let main_c : IVec S_ 1 := constantI S_ 1 1#1
  let main_v3 : IVec S_ 1 := (fun x v => Host.reduce IntOp.andi x v reducesTo_S8192x3072_S_d0_1 h_S_) main_v2 main_c
  let main_v4 : FVec F S8192x768 .f32 := Host.absf main_arg1
  let main_cst_0 : FVec F S_ .f32 := constant S_ .f32 0x7F800000#32
  let main_v5 : FVec F S8192x768 .f32 := broadcastInDim S8192x768 ![] bcast_S_S8192x768 main_cst_0
  let main_v6 : IVec S8192x768 1 := cmpf .olt main_v4 main_v5
  let main_c_1 : IVec S_ 1 := constantI S_ 1 1#1
  let main_v7 : IVec S_ 1 := (fun x v => Host.reduce IntOp.andi x v reducesTo_S8192x768_S_d0_1 h_S_) main_v6 main_c_1
  let main_v8 : IVec S_ 1 := andi main_v3 main_v7
  let main_v9 : FVec F S3840x64 .f32 := Host.absf main_arg2
  let main_cst_2 : FVec F S_ .f32 := constant S_ .f32 0x7F800000#32
  let main_v10 : FVec F S3840x64 .f32 := broadcastInDim S3840x64 ![] bcast_S_S3840x64 main_cst_2
  let main_v11 : IVec S3840x64 1 := cmpf .olt main_v9 main_v10
  let main_c_3 : IVec S_ 1 := constantI S_ 1 1#1
  let main_v12 : IVec S_ 1 := (fun x v => Host.reduce IntOp.andi x v reducesTo_S3840x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S8192x3072 : Shape := ⟨2, ![8192, 3072]⟩
abbrev S8192x768 : Shape := ⟨2, ![8192, 768]⟩
abbrev S3840x64 : Shape := ⟨2, ![3840, 64]⟩
abbrev S64 : Shape := ⟨1, ![64]⟩
abbrev S1x64 : Shape := ⟨2, ![1, 64]⟩
abbrev S8192x64 : Shape := ⟨2, ![8192, 64]⟩
abbrev S1024x3072 : Shape := ⟨2, ![1024, 3072]⟩
abbrev S1024x768 : Shape := ⟨2, ![1024, 768]⟩
abbrev S1024x64 : Shape := ⟨2, ![1024, 64]⟩
abbrev S3072x64 : Shape := ⟨2, ![3072, 64]⟩
abbrev S768x64 : Shape := ⟨2, ![768, 64]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x3072, .f32⟩
  | .hbm, ⟨1, _⟩ => ⟨S8192x768, .f32⟩
  | .hbm, ⟨2, _⟩ => ⟨S3840x64, .f32⟩
  | .hbm, ⟨3, _⟩ => ⟨S64, .f32⟩
  | .hbm, ⟨4, _⟩ => ⟨S1x64, .f32⟩
  | .hbm, ⟨5, _⟩ => ⟨S8192x64, .f32⟩
  | .local _ .vmem, ⟨0, _⟩ => ⟨S1024x3072, .f32⟩
  | .local _ .vmem, ⟨1, _⟩ => ⟨S1024x3072, .f32⟩
  | .local _ .vmem, ⟨2, _⟩ => ⟨S1024x768, .f32⟩
  | .local _ .vmem, ⟨3, _⟩ => ⟨S1024x768, .f32⟩
  | .local _ .vmem, ⟨4, _⟩ => ⟨S3840x64, .f32⟩
  | .local _ .vmem, ⟨5, _⟩ => ⟨S1x64, .f32⟩
  | .local _ .vmem, ⟨6, _⟩ => ⟨S1024x64, .f32⟩
  | .local _ .vmem, ⟨7, _⟩ => ⟨S1024x64, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3840x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64_S1x64 : S64.ShapeCasts S1x64
  inb_S1024x3072_S1024x3072_0_0 : ∀ a, (![0, 0] : Fin 2 → Nat) a + S1024x3072.size a ≤ S1024x3072.size a
  h_S1024x3072 : 0 < S1024x3072.numel
  inb_S3840x64_S3072x64_0_0 : ∀ a, (![0, 0] : Fin 2 → Nat) a + S3072x64.size a ≤ S3840x64.size a
  h_S3072x64 : 0 < S3072x64.numel
  inb_S1024x768_S1024x768_0_0 : ∀ a, (![0, 0] : Fin 2 → Nat) a + S1024x768.size a ≤ S1024x768.size a
  h_S1024x768 : 0 < S1024x768.numel
  inb_S3840x64_S768x64_3072_0 : ∀ a, (![3072, 0] : Fin 2 → Nat) a + S768x64.size a ≤ S3840x64.size a
  h_S768x64 : 0 < S768x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  reduces_S1024x64_S1024 : S1024x64.Reduces [1] S1024
  shapeCasts_S1024_S1024x1 : S1024.ShapeCasts S1024x1
  broadcasts_S1024x1_S1024x64 : S1024x1.Broadcasts S1024x64
  inb_S1024x64_S1024x64_0_0 : ∀ a, (![0, 0] : Fin 2 → Nat) a + S1024x64.size a ≤ S1024x64.size a
  h_S1024x64 : 0 < S1024x64.numel
  dot_S1024x3072_S3072x64_S1024x64_1_0_0_1_n_n_wf : DotDims.WF S1024x3072 S3072x64 S1024x64 [1] [0] [0] [1] [] []
  dot_S1024x768_S768x64_S1024x64_1_0_0_1_n_n_wf : DotDims.WF S1024x768 S768x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3072.size a ≤ S8192x3072.size a
  hwx0_0 : ∀ i : grid0.Coords, EltTy.bits .f32 = 32 ∨ (Rect.block (s := S8192x3072) S1024x3072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S8192x768.size a
  hwx0_1 : ∀ i : grid0.Coords, EltTy.bits .f32 = 32 ∨ (Rect.block (s := S8192x768) S1024x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3840x64.size a ≤ S3840x64.size a
  hwx0_2 : ∀ i : grid0.Coords, EltTy.bits .f32 = 32 ∨ (Rect.block (s := S3840x64) S3840x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S8192x64.size a
  hwx0_4 : ∀ i : grid0.Coords, EltTy.bits .f32 = 32 ∨ (Rect.block (s := S8192x64) S1024x64.size (cc0_transform_4 i) (hinb0_4 i)).WholeWords (EltTy.packing .f32)

variable [Facts₀]

def dot_S1024x3072_S3072x64_S1024x64_1_0_0_1_n_n : DotDims S1024x3072 S3072x64 S1024x64 where
  lhsContracting := [1]
  rhsContracting := [0]
  lhsNonContracting := [0]
  rhsNonContracting := [1]
  lhsBatch := []
  rhsBatch := []
  wf := dot_S1024x3072_S3072x64_S1024x64_1_0_0_1_n_n_wf
def dot_S1024x768_S768x64_S1024x64_1_0_0_1_n_n : DotDims S1024x768 S768x64 S1024x64 where
  lhsContracting := [1]
  rhsContracting := [0]
  lhsNonContracting := [0]
  rhsNonContracting := [1]
  lhsBatch := []
  rhsBatch := []
  wf := dot_S1024x768_S768x64_S1024x64_1_0_0_1_n_n_wf

abbrev win0_0 : Pipeline.Window sig grid0 :=
  Pipeline.Window.ofSpec (Memref.whole main_arg0) S1024x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3840x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x3072 : Shape := ⟨2, ![8192, 3072]⟩
abbrev S8192x768 : Shape := ⟨2, ![8192, 768]⟩
abbrev S3840x64 : Shape := ⟨2, ![3840, 64]⟩
abbrev S64 : Shape := ⟨1, ![64]⟩
abbrev S8192x3840 : Shape := ⟨2, ![8192, 3840]⟩
abbrev S8192x64 : Shape := ⟨2, ![8192, 64]⟩
abbrev S1x64 : Shape := ⟨2, ![1, 64]⟩
abbrev S_ : Shape := ⟨0, ![]⟩
abbrev S8192 : Shape := ⟨1, ![8192]⟩
abbrev S8192x1 : Shape := ⟨2, ![8192, 1]⟩

abbrev nBuf : Space → Nat
  | .hbm => 23
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x768, .f32⟩
  | .hbm, ⟨2, _⟩ => ⟨S3840x64, .f32⟩
  | .hbm, ⟨3, _⟩ => ⟨S64, .f32⟩
  | .hbm, ⟨4, _⟩ => ⟨S8192x3840, .f32⟩
  | .hbm, ⟨5, _⟩ => ⟨S8192x64, .f32⟩
  | .hbm, ⟨6, _⟩ => ⟨S1x64, .f32⟩
  | .hbm, ⟨7, _⟩ => ⟨S8192x64, .f32⟩
  | .hbm, ⟨8, _⟩ => ⟨S8192x64, .f32⟩
  | .hbm, ⟨9, _⟩ => ⟨S_, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192x1, .f32⟩
  | .hbm, ⟨15, _⟩ => ⟨S8192x64, .f32⟩
  | .hbm, ⟨16, _⟩ => ⟨S8192x64, .f32⟩
  | .hbm, ⟨17, _⟩ => ⟨S8192x64, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S8192x64, .f32⟩
  | .hbm, ⟨22, _⟩ => ⟨S8192x64, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  concatenates_S8192x3072_S8192x768_S8192x3840_d1 : Shape.Concatenates [S8192x3072, S8192x768] S8192x3840 1
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  dot_S8192x3840_S3840x64_S8192x64_1_0_0_1_n_n_wf : DotDims.WF S8192x3840 S3840x64 S8192x64 [1] [0] [0] [1] [] []

variable [Facts₀]

def dot_S8192x3840_S3840x64_S8192x64_1_0_0_1_n_n : DotDims S8192x3840 S3840x64 S8192x64 where
  lhsContracting := [1]
  rhsContracting := [0]
  lhsNonContracting := [0]
  rhsNonContracting := [1]
  lhsBatch := []
  rhsBatch := []
  wf := dot_S8192x3840_S3840x64_S8192x64_1_0_0_1_n_n_wf

class Facts : Prop extends Facts₀ where

variable [Facts]
-- ==== Proof.GateSpec.lean ====
/-
  The gating network as one function of its four argument arrays, over the extended reals.

  For a token `r` (one of 8192 rows) and an expert `e` (one of 64 columns) the logit is the inner product of the
  row `[x r | z r]` (3072 entries of `x` followed by 768 entries of `z`) with column `e` of `W`, plus the bias `b e`.
  The inner product is written as the sum over the `x` part plus the sum over the `z` part. The gates are the
  softmax of a row of logits: with `M r` the largest logit of the row (the fold of `max` from the pattern of minus
  infinity), `gate r e = exp (logit r e - M r) / ∑ e', exp (logit r e' - M r)`.

  The one law needed between two arrangements of the inner product is that a sum over 3840 = 3072 + 768 indices is
  the sum over the first 3072 plus the sum over the last 768 (`sum_split`), which holds in any commutative additive
  monoid, so on the extended reals without any finiteness assumption.
-/
import Idealize.ShloMosaic.PureOps.Ideal
import Idealize.ShloMosaic.PureOps.Ideal.Laws
import Idealize.ShloMosaic.Lib.ValueIdx

noncomputable section

namespace Cert.Gate

open Idealize.ShloMosaic Idealize.ShloMosaic.ValueIdx

/-- The shapes of the arguments and of the result. -/
abbrev SX : Shape := ⟨2, ![8192, 3072]⟩
abbrev SZ : Shape := ⟨2, ![8192, 768]⟩
abbrev SW : Shape := ⟨2, ![3840, 64]⟩
abbrev SB : Shape := ⟨1, ![64]⟩
abbrev SO : Shape := ⟨2, ![8192, 64]⟩

/-- Row `k` of `W` among its first 3072 rows (the rows that meet `x`). -/
abbrev wLo (k : Fin 3072) : Fin 3840 := ⟨k.val, by have := k.isLt; omega⟩
/-- Row `3072 + k` of `W` (the rows that meet `z`). -/
abbrev wHi (k : Fin 768) : Fin 3840 := ⟨3072 + k.val, by have := k.isLt; omega⟩

variable (x : SX.Idx → EReal) (z : SZ.Idx → EReal) (W : SW.Idx → EReal) (b : SB.Idx → EReal)

/-- The logit of token `r` for expert `e`: `x r · W[0:3072, e] + z r · W[3072:3840, e] + b e`. -/
def logit (r : Fin 8192) (e : Fin 64) : EReal :=
  (∑ k : Fin 3072, x (ix2 r k) * W (ix2 (wLo k) e)) + (∑ k : Fin 768, z (ix2 r k) * W (ix2 (wHi k) e)) + b (ix1 e)

/-- The largest logit of token `r`, as the fold of `max` from the pattern of minus infinity. -/
def rowMax (r : Fin 8192) : EReal :=
  (Finset.univ : Finset (Fin 64)).fold max (Ideal.ofBits .f32 0xFF800000#32) (fun e => logit x z W b r e)

/-- The shifted exponential `exp (logit r e - M r)`. -/
def expo (r : Fin 8192) (e : Fin 64) : EReal := Ideal.exp (logit x z W b r e - rowMax x z W b r)

/-- The softmax denominator of token `r`. -/
def denom (r : Fin 8192) : EReal := ∑ e : Fin 64, expo x z W b r e

/-- The gates: the softmax of each row of logits. -/
def gates : SO.Idx → EReal := fun i => Ideal.div (expo x z W b (i 0) (i 1)) (denom x z W b (i 0))

/-- A sum over 3840 indices is the sum over the first 3072 plus the sum over the last 768. -/
theorem sum_split {M : Type*} [AddCommMonoid M] (f : Fin 3840 → M) :
    ∑ k : Fin 3840, f k = (∑ k : Fin 3072, f (wLo k)) + ∑ k : Fin 768, f (wHi k) :=
  Fin.sum_univ_add (a := 3072) (b := 768) f

/-- The fold of `max` from a value is at least that value, so taking `max` with it again changes nothing. -/
theorem max_fold_self {ι : Type*} (s : Finset ι) (c : EReal) (f : ι → EReal) :
    max c (s.fold max c f) = s.fold max c f :=
  max_eq_right ((Finset.le_fold_max c).mpr (Or.inl le_rfl))

end Cert.Gate

end
-- ==== Proof.LibKeepdims.lean ====
/-
  General lemmas for row reductions with `keepdims=True` over a rank-2 array `[a, b]`, read at an index.

  A kernel that reduces each row of an `[a, b]` array (a maximum, a sum) and uses the result against the
  whole array again spells this as: reduce over axis 1 into `[a]`, cast `[a]` to the column `[a, 1]`, broadcast
  the column to `[a, b]`. Here each of these steps is read at an index written by coordinates:

  * `shapeCast_a_a1_apply`: the column `[a, 1]` made of a vector `[a]` holds, at `(i, u)`, the vector's entry `i`;
  * `broadcastTo_a1_ab_apply`: a column `[a, 1]` broadcast to `[a, b]` holds, at `(p, c)`, the column's entry `(p, 0)`;
  * `column_apply`: the two composed;
  * `rowSum_apply`, `rowMax_apply`: over the extended reals, a vector unit's sum (maximum) over axis 1 of `[a, b]`
    at row `p` is the sum (the fold of `max` from the accumulator's value) over `k` of the entries `(p, k)`;
  * `hostRowSum_apply`, `hostRowMax_apply`: the same for the host's one-operand reduce over axis 1.
-/
import Idealize.ShloMosaic.PureOps.Ideal.Laws
import Idealize.ShloMosaic.Lib.ValueIdx
import Idealize.ShloMosaic.Lib.Pipeline.Value

noncomputable section

namespace Cert.Keepdims

open Idealize.ShloMosaic Idealize.ShloMosaic.ValueIdx

variable {α : Type}

/-- A vector `[a]` cast to the column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` made a column and broadcast along the rows of `[a, b]` reads, at `(p, c)`, the vector at `p`. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- Row `p` of `[a, b]` with the coordinate `k` inserted on axis 1 is the index `(p, k)`. -/
theorem lift_row {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

variable {φ : FTy}

/-- Over the extended reals a vector unit's sum over axis 1 of `[a, b]`, at row `p`, is `∑ k, src (p, k)`. -/
theorem rowSum_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- Over the extended reals a vector unit's maximum over axis 1 of `[a, b]`, at row `p`, is the fold of `max`, from the
    accumulator's value, over `k` of `src (p, k)`. -/
theorem rowMax_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (Finset.univ.fold max (Ideal.ofBits φ acc)) (funext fun k => congrArg src (lift_row h p k)))

/-- Over the extended reals the host's sum over axis 1 of `[a, b]`, at row `p`, is the initial value plus `∑ k, x (p, k)`. -/
theorem hostRowSum_apply {a b : ℕ} (x : (⟨2, ![a, b]⟩ : Shape).Idx → EReal)
    (h' : (⟨2, ![a, b]⟩ : Shape).ReducesTo [1] ⟨1, ![a]⟩) (h : (⟨2, ![a, b]⟩ : Shape).Reduces [1] ⟨1, ![a]⟩)
    (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

/-- Over the extended reals the host's maximum over axis 1 of `[a, b]`, at row `p`, is the fold of `max`, from the
    initial value, over `k` of `x (p, k)`. -/
theorem hostRowMax_apply {a b : ℕ} {u : Shape} (x : (⟨2, ![a, b]⟩ : Shape).Idx → Ideal φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p)
      = (Finset.univ : Finset (Fin b)).fold max (init (Shape.Idx.first hu)) (fun k => x (ix2 p k)) :=
  (Host.reduce_eq_fold_single FloatOps.maximumf x init h' h hu (ix1 p)).trans
    (congrArg (Finset.univ.fold max (init (Shape.Idx.first hu))) (funext fun k => congrArg x (lift_row h p k)))

end Cert.Keepdims

end
-- ==== Proof.GateRef.lean ====
/-
  The reference computes the gates.

  The reference concatenates `x` and `z` along the columns into an array `h` of 3840 columns, multiplies by `W`, adds
  the bias, and takes the softmax of each row. Read at an index, `h (r, k)` is `x (r, k)` for `k < 3072` and
  `z (r, k - 3072)` from there on, so the inner product `∑ k < 3840, h (r, k) · W (k, e)` splits into the sum over the
  first 3072 indices, which meet `x`, and the sum over the last 768, which meet `z`: the logit of `GateSpec`.
  jax's softmax takes the row maximum as `max (-∞, rowmax)`, which is the row maximum itself since the fold already
  starts from that value; it subtracts, exponentiates, sums from zero and divides, as the specification does.
-/
import proofs.«119151_g46437186404428_cont_8to1_c_839_18_alg».proof.Proof.Gen.ReferenceIdeal.Read
import proofs.«119151_g46437186404428_cont_8to1_c_839_18_alg».proof.Proof.GateSpec
import proofs.«119151_g46437186404428_cont_8to1_c_839_18_alg».proof.Proof.LibKeepdims

noncomputable section

namespace Cert.Gate.Ref

open Cert.ReferenceIdeal Cert.ReferenceIdeal.Gen Cert.ReferenceIdeal.Read Idealize.ShloMosaic Idealize.ShloMosaic.ValueIdx Cert.Gate

variable (x : (⟨S8192x3072, .f32⟩ : BufTy).Contents (Elt Ideal)) (z : (⟨S8192x768, .f32⟩ : BufTy).Contents (Elt Ideal))
  (W : (⟨S3840x64, .f32⟩ : BufTy).Contents (Elt Ideal)) (b : (⟨S64, .f32⟩ : BufTy).Contents (Elt Ideal))

/-- Column `k < 3072` of the concatenation is column `k` of `x`. -/
theorem concat_lo (r : Fin 8192) (e : Fin 64) (k : Fin 3072) :
    val_main_v0 (F := Ideal) x z (lidx_main_v1 (ix2 r e) (wLo k)) = x (ix2 r k) := by
  unfold val_main_v0
  exact concatenate_pair_apply_left 1 x z concatenates_S8192x3072_S8192x768_S8192x3840_d1 _ rfl (ix2 r k)
    (fun c => match c with | ⟨0, _⟩ => rfl | ⟨1, _⟩ => rfl)

/-- Column `3072 + k` of the concatenation is column `k` of `z`. -/
theorem concat_hi (r : Fin 8192) (e : Fin 64) (k : Fin 768) :
    val_main_v0 (F := Ideal) x z (lidx_main_v1 (ix2 r e) (wHi k)) = z (ix2 r k) := by
  unfold val_main_v0
  exact concatenate_pair_apply_right 1 x z concatenates_S8192x3072_S8192x768_S8192x3840_d1 _ rfl rfl (ix2 r k)
    (fun c hc => match c, hc with | ⟨0, _⟩, _ => rfl | ⟨1, _⟩, hc => absurd rfl hc)
    (Nat.add_comm _ _)

/-- The right operand's index at contraction index `k` is `(k, e)`. -/
theorem ridx_eq (r : Fin 8192) (e : Fin 64) (k : Fin 3840) : ridx_main_v1 (ix2 r e) k = ix2 k e :=
  funext fun a => Fin.ext (by match a with | ⟨0, _⟩ => rfl | ⟨1, _⟩ => rfl)

/-- The reference's logits are the specification's. -/
theorem logits_apply (r : Fin 8192) (e : Fin 64) :
    val_main_v4 (F := Ideal) x z W b (ix2 r e) = logit x z W b r e := by
  rw [val_main_v4_apply, val_main_v1_apply, val_main_v3_apply, val_main_v2_apply, sum_split, Ideal.addf_def]
  unfold logit
  refine congrArg₂ (· + ·) (congrArg₂ (· + ·) (Finset.sum_congr rfl fun k _ => ?_) (Finset.sum_congr rfl fun k _ => ?_)) ?_
  · exact congrArg₂ (· * ·) (concat_lo x z r e k) (congrArg W (ridx_eq r e (wLo k)))
  · exact congrArg₂ (· * ·) (concat_hi x z r e k) (congrArg W (ridx_eq r e (wHi k)))
  · exact congrArg b (funext fun a => Fin.ext (by match a with | ⟨0, _⟩ => rfl))

/-- The reference's row maximum is the specification's: `max` with minus infinity once more changes nothing. -/
theorem rowMax_apply (r : Fin 8192) : val_main_v7 (F := Ideal) x z W b (ix1 r) = rowMax x z W b r := by
  rw [val_main_v7_apply, val_main_v6_apply, val_main_cst_0_apply, Ideal.maximumf_def]
  unfold val_main_v5
  rw [Cert.Keepdims.hostRowMax_apply (val_main_v4 (F := Ideal) x z W b) (val_main_cst (F := Ideal))
    reducesTo_S8192x64_S8192_d1 (by decide) h_S_ r, val_main_cst_apply]
  unfold rowMax
  rw [funext fun k => logits_apply x z W b r k]
  exact max_fold_self _ _ _

/-- The reference's shifted exponentials are the specification's. -/
theorem expo_apply (r : Fin 8192) (e : Fin 64) :
    val_main_v11 (F := Ideal) x z W b (ix2 r e) = expo x z W b r e := by
  rw [val_main_v11_apply, val_main_v10_apply, val_main_v9_apply, val_main_v8_apply, logits_apply,
    show idx_main_v8 (idx_main_v9 (ix2 r e)) = ix1 r from funext fun a => Fin.ext (by match a with | ⟨0, _⟩ => rfl),
    rowMax_apply, Ideal.hostUnary_exp_def, Ideal.subf_def]
  rfl

/-- The reference's softmax denominators are the specification's. -/
theorem denom_apply (r : Fin 8192) : val_main_v12 (F := Ideal) x z W b (ix1 r) = denom x z W b r := by
  rw [val_main_v12_apply, val_main_cst_1_apply, Ideal.ofBits_def, Ideal.ofBits_zero_f32, zero_add]
  unfold denom
  refine Finset.sum_congr rfl fun k _ => ?_
  rw [show idx_main_v12 (ix1 r) k = ix2 r k from funext fun a => Fin.ext (by match a with | ⟨0, _⟩ => rfl | ⟨1, _⟩ => rfl)]
  exact expo_apply x z W b r k

/-- The reference's result is the gates, index by index. -/
theorem result_eq : val_main_v15 (F := Ideal) x z W b = gates x z W b := by
  funext i
  obtain ⟨r, e, rfl⟩ : ∃ (r : Fin 8192) (e : Fin 64), i = ix2 r e := ⟨i 0, i 1, eq_ix2 i⟩
  rw [val_main_v15_apply, val_main_v14_apply, val_main_v13_apply, expo_apply,
    show idx_main_v13 (idx_main_v14 (ix2 r e)) = ix1 r from funext fun a => Fin.ext (by match a with | ⟨0, _⟩ => rfl),
    denom_apply, Ideal.hostDivf_def]
  rfl

end Cert.Gate.Ref

end
-- ==== Proof.GateBlock.lean ====
/-
  What the kernel's body computes on one block of 1024 tokens, read at an index.

  The body loads a block `xb` of 1024 rows of `x`, the matching block `zb` of `z`, the first 3072 rows `wx` and the last
  768 rows `wz` of `W`, and the bias as one row `bb`. Its logits are `xb · wx + zb · wz + bb` (two products on the
  matrix unit, each into a zero accumulator, so each is a plain inner product over the extended reals), and its result
  is the softmax of each row of logits: the row maximum (a lane reduction from minus infinity) is made a column and
  broadcast back, subtracted, exponentiated; the row sum of the exponentials is made a column and broadcast back, and
  divides them. `pay_apply` states the result at `(p, q)` in terms of the loaded blocks' entries.
-/
import proofs.«119151_g46437186404428_cont_8to1_c_839_18_alg».proof.Proof.Gen.KernelIdeal.Skeleton
import proofs.«119151_g46437186404428_cont_8to1_c_839_18_alg».proof.Proof.LibKeepdims
import proofs.«119151_g46437186404428_cont_8to1_c_839_18_alg».proof.Proof.GateSpec
import Idealize.ShloMosaic.Lib.ValueLayout

noncomputable section

namespace Cert.Gate.Block

open Cert.KernelIdeal Cert.KernelIdeal.Facts₀ Idealize.ShloMosaic Idealize.ShloMosaic.ValueIdx

/-! ## The two block products -/

theorem lhsX_0 (i : S1024x64.Idx) (q : dot_S1024x3072_S3072x64_S1024x64_1_0_0_1_n_n.contr.Idx) :
    (dot_S1024x3072_S3072x64_S1024x64_1_0_0_1_n_n.lhsIdx i q 0).val = (i 0).val := by
  unfold DotDims.lhsIdx
  rw [dif_neg (show ¬(0 : Fin S1024x3072.rank) ∈ dot_S1024x3072_S3072x64_S1024x64_1_0_0_1_n_n.lhsBatch by decide), dif_pos (show (0 : Fin S1024x3072.rank) ∈ dot_S1024x3072_S3072x64_S1024x64_1_0_0_1_n_n.lhsNonContracting by decide)]
  rfl
theorem lhsX_1 (i : S1024x64.Idx) (q : dot_S1024x3072_S3072x64_S1024x64_1_0_0_1_n_n.contr.Idx) :
    (dot_S1024x3072_S3072x64_S1024x64_1_0_0_1_n_n.lhsIdx i q 1).val = (q ⟨0, by decide⟩).val :=
  dot_S1024x3072_S3072x64_S1024x64_1_0_0_1_n_n.lhsIdx_val_of_single rfl i q
theorem rhsX_0 (i : S1024x64.Idx) (q : dot_S1024x3072_S3072x64_S1024x64_1_0_0_1_n_n.contr.Idx) :
    (dot_S1024x3072_S3072x64_S1024x64_1_0_0_1_n_n.rhsIdx i q 0).val = (q ⟨0, by decide⟩).val :=
  dot_S1024x3072_S3072x64_S1024x64_1_0_0_1_n_n.rhsIdx_val_of_single rfl i q
theorem rhsX_1 (i : S1024x64.Idx) (q : dot_S1024x3072_S3072x64_S1024x64_1_0_0_1_n_n.contr.Idx) :
    (dot_S1024x3072_S3072x64_S1024x64_1_0_0_1_n_n.rhsIdx i q 1).val = (i 1).val := by
  unfold DotDims.rhsIdx
  rw [dif_neg (show ¬(1 : Fin S3072x64.rank) ∈ dot_S1024x3072_S3072x64_S1024x64_1_0_0_1_n_n.rhsBatch by decide), dif_pos (show (1 : Fin S3072x64.rank) ∈ dot_S1024x3072_S3072x64_S1024x64_1_0_0_1_n_n.rhsNonContracting by decide)]
  rfl

theorem lhsZ_0 (i : S1024x64.Idx) (q : dot_S1024x768_S768x64_S1024x64_1_0_0_1_n_n.contr.Idx) :
    (dot_S1024x768_S768x64_S1024x64_1_0_0_1_n_n.lhsIdx i q 0).val = (i 0).val := by
  unfold DotDims.lhsIdx
  rw [dif_neg (show ¬(0 : Fin S1024x768.rank) ∈ dot_S1024x768_S768x64_S1024x64_1_0_0_1_n_n.lhsBatch by decide), dif_pos (show (0 : Fin S1024x768.rank) ∈ dot_S1024x768_S768x64_S1024x64_1_0_0_1_n_n.lhsNonContracting by decide)]
  rfl
theorem lhsZ_1 (i : S1024x64.Idx) (q : dot_S1024x768_S768x64_S1024x64_1_0_0_1_n_n.contr.Idx) :
    (dot_S1024x768_S768x64_S1024x64_1_0_0_1_n_n.lhsIdx i q 1).val = (q ⟨0, by decide⟩).val :=
  dot_S1024x768_S768x64_S1024x64_1_0_0_1_n_n.lhsIdx_val_of_single rfl i q
theorem rhsZ_0 (i : S1024x64.Idx) (q : dot_S1024x768_S768x64_S1024x64_1_0_0_1_n_n.contr.Idx) :
    (dot_S1024x768_S768x64_S1024x64_1_0_0_1_n_n.rhsIdx i q 0).val = (q ⟨0, by decide⟩).val :=
  dot_S1024x768_S768x64_S1024x64_1_0_0_1_n_n.rhsIdx_val_of_single rfl i q
theorem rhsZ_1 (i : S1024x64.Idx) (q : dot_S1024x768_S768x64_S1024x64_1_0_0_1_n_n.contr.Idx) :
    (dot_S1024x768_S768x64_S1024x64_1_0_0_1_n_n.rhsIdx i q 1).val = (i 1).val := by
  unfold DotDims.rhsIdx
  rw [dif_neg (show ¬(1 : Fin S768x64.rank) ∈ dot_S1024x768_S768x64_S1024x64_1_0_0_1_n_n.rhsBatch by decide), dif_pos (show (1 : Fin S768x64.rank) ∈ dot_S1024x768_S768x64_S1024x64_1_0_0_1_n_n.rhsNonContracting by decide)]
  rfl

/-- The block product of `x`'s block with `W`'s first 3072 rows into a zero accumulator, at `(p, q)`, is the inner product of row `p` of the left block with
    column `q` of the right block. -/
theorem matmulX_apply (l : FVec Ideal S1024x3072 .f32) (w : FVec Ideal S3072x64 .f32) (p : Fin 1024) (q : Fin 64) :
    matmul dot_S1024x3072_S3072x64_S1024x64_1_0_0_1_n_n none l w (constant (F := Ideal) S1024x64 .f32 0x00000000#32) (ix2 p q)
      = ∑ k : Fin 3072, l (ix2 p k) * w (ix2 k q) := by
  simp only [matmul]
  rw [Ideal.matmul_constant_zero_apply, ← Equiv.sum_comp (contrEquiv1 dot_S1024x3072_S3072x64_S1024x64_1_0_0_1_n_n 3072 rfl rfl).symm]
  refine Finset.sum_congr rfl fun k _ => ?_
  have hk := contrEquiv1_symm_val dot_S1024x3072_S3072x64_S1024x64_1_0_0_1_n_n 3072 rfl rfl k
  have el : dot_S1024x3072_S3072x64_S1024x64_1_0_0_1_n_n.lhsIdx (ix2 p q) ((contrEquiv1 dot_S1024x3072_S3072x64_S1024x64_1_0_0_1_n_n 3072 rfl rfl).symm k) = ix2 p k := funext fun a => Fin.ext (by
    match a with
    | ⟨0, _⟩ => exact lhsX_0 _ _
    | ⟨1, _⟩ => exact (lhsX_1 _ _).trans hk)
  have er : dot_S1024x3072_S3072x64_S1024x64_1_0_0_1_n_n.rhsIdx (ix2 p q) ((contrEquiv1 dot_S1024x3072_S3072x64_S1024x64_1_0_0_1_n_n 3072 rfl rfl).symm k) = ix2 k q := funext fun a => Fin.ext (by
    match a with
    | ⟨0, _⟩ => exact (rhsX_0 _ _).trans hk
    | ⟨1, _⟩ => exact rhsX_1 _ _)
  rw [el, er]

/-- The block product of `z`'s block with `W`'s last 768 rows into a zero accumulator, at `(p, q)`, is the inner product of row `p` of the left block with
    column `q` of the right block. -/
theorem matmulZ_apply (l : FVec Ideal S1024x768 .f32) (w : FVec Ideal S768x64 .f32) (p : Fin 1024) (q : Fin 64) :
    matmul dot_S1024x768_S768x64_S1024x64_1_0_0_1_n_n none l w (constant (F := Ideal) S1024x64 .f32 0x00000000#32) (ix2 p q)
      = ∑ k : Fin 768, l (ix2 p k) * w (ix2 k q) := by
  simp only [matmul]
  rw [Ideal.matmul_constant_zero_apply, ← Equiv.sum_comp (contrEquiv1 dot_S1024x768_S768x64_S1024x64_1_0_0_1_n_n 768 rfl rfl).symm]
  refine Finset.sum_congr rfl fun k _ => ?_
  have hk := contrEquiv1_symm_val dot_S1024x768_S768x64_S1024x64_1_0_0_1_n_n 768 rfl rfl k
  have el : dot_S1024x768_S768x64_S1024x64_1_0_0_1_n_n.lhsIdx (ix2 p q) ((contrEquiv1 dot_S1024x768_S768x64_S1024x64_1_0_0_1_n_n 768 rfl rfl).symm k) = ix2 p k := funext fun a => Fin.ext (by
    match a with
    | ⟨0, _⟩ => exact lhsZ_0 _ _
    | ⟨1, _⟩ => exact (lhsZ_1 _ _).trans hk)
  have er : dot_S1024x768_S768x64_S1024x64_1_0_0_1_n_n.rhsIdx (ix2 p q) ((contrEquiv1 dot_S1024x768_S768x64_S1024x64_1_0_0_1_n_n 768 rfl rfl).symm k) = ix2 k q := funext fun a => Fin.ext (by
    match a with
    | ⟨0, _⟩ => exact (rhsZ_0 _ _).trans hk
    | ⟨1, _⟩ => exact rhsZ_1 _ _)
  rw [el, er]

/-! ## The logits of a block -/

/-- The block's logits as the body spells them. -/
def logitsB (xb : FVec Ideal S1024x3072 .f32) (wx : FVec Ideal S3072x64 .f32) (zb : FVec Ideal S1024x768 .f32)
    (wz : FVec Ideal S768x64 .f32) (bb : FVec Ideal S1x64 .f32) : FVec Ideal S1024x64 .f32 :=
  addf (addf (matmul dot_S1024x3072_S3072x64_S1024x64_1_0_0_1_n_n none xb wx (constant S1024x64 .f32 0x00000000#32))
      (matmul dot_S1024x768_S768x64_S1024x64_1_0_0_1_n_n none zb wz (constant S1024x64 .f32 0x00000000#32)))
    (broadcastTo S1024x64 (shapeCast S1x64 bb shapeCasts_S1x64_S1x64) broadcasts_S1x64_S1024x64)

/-- A logit of the block: the two inner products plus the bias. -/
theorem logitsB_apply (xb : FVec Ideal S1024x3072 .f32) (wx : FVec Ideal S3072x64 .f32) (zb : FVec Ideal S1024x768 .f32)
    (wz : FVec Ideal S768x64 .f32) (bb : FVec Ideal S1x64 .f32) (p : Fin 1024) (q : Fin 64) :
    logitsB xb wx zb wz bb (ix2 p q)
      = (∑ k : Fin 3072, xb (ix2 p k) * wx (ix2 k q)) + (∑ k : Fin 768, zb (ix2 p k) * wz (ix2 k q)) + bb (ix2 (0 : Fin 1) q) := by
  show (matmul dot_S1024x3072_S3072x64_S1024x64_1_0_0_1_n_n none xb wx (constant (F := Ideal) S1024x64 .f32 0x00000000#32) (ix2 p q)
      + matmul dot_S1024x768_S768x64_S1024x64_1_0_0_1_n_n none zb wz (constant (F := Ideal) S1024x64 .f32 0x00000000#32) (ix2 p q))
      + broadcastTo S1024x64 (shapeCast S1x64 bb shapeCasts_S1x64_S1x64) broadcasts_S1x64_S1024x64 (ix2 p q) = _
  rw [matmulX_apply, matmulZ_apply, broadcastTo_1b_ab_apply, shapeCast_self]

/-! ## The softmax of a block's rows -/

/-- The row maxima, by a lane reduction from the pattern of minus infinity. -/
def rowMaxV (l : FVec Ideal S1024x64 .f32) : FVec Ideal S1024 .f32 :=
  multiReduction .maximumf [1] S1024 l 0xFF800000#32 reduces_S1024x64_S1024 (.inl rfl) rfl
/-- The row sums, by a lane reduction from zero. -/
def rowSumV (l : FVec Ideal S1024x64 .f32) : FVec Ideal S1024 .f32 :=
  multiReduction .add [1] S1024 l 0x00000000#32 reduces_S1024x64_S1024 (.inl rfl) rfl
/-- A vector of 1024 row values made a column and broadcast over the 64 lanes. -/
def colB (v : FVec Ideal S1024 .f32) : FVec Ideal S1024x64 .f32 :=
  broadcastTo S1024x64 (shapeCast S1024x1 v shapeCasts_S1024_S1024x1) broadcasts_S1024x1_S1024x64
/-- The exponentials of the logits shifted by their row maximum. -/
def shifted (l : FVec Ideal S1024x64 .f32) : FVec Ideal S1024x64 .f32 := exp (subf l (colB (rowMaxV l)))
/-- The softmax of each row, as the body spells it. -/
def softmaxB (l : FVec Ideal S1024x64 .f32) : FVec Ideal S1024x64 .f32 := divf (shifted l) (colB (rowSumV (shifted l)))

theorem rowMaxV_apply (l : FVec Ideal S1024x64 .f32) (p : Fin 1024) :
    rowMaxV l (ix1 p) = (Finset.univ : Finset (Fin 64)).fold max (Ideal.ofBits .f32 0xFF800000#32) (fun k => l (ix2 p k)) :=
  Cert.Keepdims.rowMax_apply l _ _ _ _ p
theorem rowSumV_apply (l : FVec Ideal S1024x64 .f32) (p : Fin 1024) : rowSumV l (ix1 p) = ∑ k : Fin 64, l (ix2 p k) :=
  Cert.Keepdims.rowSum_apply l _ _ _ _ p
theorem colB_apply (v : FVec Ideal S1024 .f32) (p : Fin 1024) (q : Fin 64) : colB v (ix2 p q) = v (ix1 p) :=
  Cert.Keepdims.column_apply v _ _ p q

theorem shifted_apply (l : FVec Ideal S1024x64 .f32) (p : Fin 1024) (q : Fin 64) :
    shifted l (ix2 p q)
      = Ideal.exp (l (ix2 p q) - (Finset.univ : Finset (Fin 64)).fold max (Ideal.ofBits .f32 0xFF800000#32) (fun k => l (ix2 p k))) := by
  show Ideal.exp (l (ix2 p q) - colB (rowMaxV l) (ix2 p q)) = _
  rw [colB_apply, rowMaxV_apply]

/-- The softmax of row `p` at lane `q`: the shifted exponential over the sum of the row's shifted exponentials. -/
theorem softmaxB_apply (l : FVec Ideal S1024x64 .f32) (p : Fin 1024) (q : Fin 64) :
    softmaxB l (ix2 p q)
      = Ideal.div (Ideal.exp (l (ix2 p q) - (Finset.univ : Finset (Fin 64)).fold max (Ideal.ofBits .f32 0xFF800000#32) (fun k => l (ix2 p k))))
          (∑ e : Fin 64, Ideal.exp (l (ix2 p e) - (Finset.univ : Finset (Fin 64)).fold max (Ideal.ofBits .f32 0xFF800000#32) (fun k => l (ix2 p k)))) := by
  show Ideal.div (shifted l (ix2 p q)) (colB (rowSumV (shifted l)) (ix2 p q)) = _
  rw [colB_apply, rowSumV_apply, shifted_apply]
  exact congrArg (Ideal.div _) (Finset.sum_congr rfl fun e _ => shifted_apply l p e)

/-! ## The body's result -/

set_option maxRecDepth 65536 in
/-- The body's stored value is the softmax of the block's logits. -/
theorem pay_eq (xb : FVec Ideal S1024x3072 .f32) (wx : FVec Ideal S3072x64 .f32) (zb : FVec Ideal S1024x768 .f32)
    (wz : FVec Ideal S768x64 .f32) (bb : FVec Ideal S1x64 .f32) :
    Gen.k0_pay1 (F := Ideal) xb wx zb wz bb = softmaxB (logitsB xb wx zb wz bb) := rfl

/-- When row `p` of the blocks `xb`, `zb` is row `R` of the arrays `X`, `Z`, the block `wx` is the first 3072 rows of `Wt`,
    `wz` its last 768 rows, and `bb` is the bias `b` as one row, the body's result at `(p, q)` is the gate of token `R` for
    expert `q`: the block's logits in row `p` are the specification's logits of token `R`, and the softmax of a row reads
    that row only. -/
theorem block_value (X : Cert.Gate.SX.Idx → EReal) (Z : Cert.Gate.SZ.Idx → EReal) (Wt : Cert.Gate.SW.Idx → EReal)
    (b : Cert.Gate.SB.Idx → EReal)
    (xb : FVec Ideal S1024x3072 .f32) (wx : FVec Ideal S3072x64 .f32) (zb : FVec Ideal S1024x768 .f32)
    (wz : FVec Ideal S768x64 .f32) (bb : FVec Ideal S1x64 .f32) (R : Fin 8192) (p : Fin 1024)
    (hx : ∀ k : Fin 3072, xb (ix2 p k) = X (ix2 R k)) (hz : ∀ k : Fin 768, zb (ix2 p k) = Z (ix2 R k))
    (hwx : ∀ (k : Fin 3072) (e : Fin 64), wx (ix2 k e) = Wt (ix2 (Cert.Gate.wLo k) e))
    (hwz : ∀ (k : Fin 768) (e : Fin 64), wz (ix2 k e) = Wt (ix2 (Cert.Gate.wHi k) e))
    (hb : ∀ e : Fin 64, bb (ix2 (0 : Fin 1) e) = b (ix1 e)) (q : Fin 64) :
    Gen.k0_pay1 (F := Ideal) xb wx zb wz bb (ix2 p q) = Cert.Gate.gates X Z Wt b (ix2 R q) := by
  have hl : ∀ e : Fin 64, logitsB xb wx zb wz bb (ix2 p e) = Cert.Gate.logit X Z Wt b R e := fun e => by
    rw [logitsB_apply]
    unfold Cert.Gate.logit
    simp only [hx, hz, hwx, hwz, hb]
  rw [pay_eq, softmaxB_apply]
  simp only [hl]
  rfl

end Cert.Gate.Block

end
-- ==== Proof.GateKernel.lean ====
/-
  The idealized kernel's result array is the gates of its argument arrays.

  The grid has 8 points; point `t` works on tokens `1024 t … 1024 t + 1023`: its block of `x` (and of `z`, and of the
  output) is rows `1024 t + p`, `p < 1024`, all columns, while the blocks of `W` and of the bias row are the whole arrays at
  every point. The body reads rows 0 … 3071 and rows 3072 … 3839 of `W`'s block separately. So the hypotheses of
  `Block.block_value` hold with `R = 1024 t + p`, and what point `t` writes back is block `t` of the gates
  (`flushed_eq`). The 8 output blocks tile the 8192 rows (row `r` lies in block `r / 1024`), so the array ends holding
  the gates everywhere (`final`), and the run's post is restated with that array (`run`).
-/
import proofs.«119151_g46437186404428_cont_8to1_c_839_18_alg».proof.Proof.Gen.KernelIdeal.Value
import proofs.«119151_g46437186404428_cont_8to1_c_839_18_alg».proof.Proof.GateSpec
import proofs.«119151_g46437186404428_cont_8to1_c_839_18_alg».proof.Proof.GateBlock
import Idealize.ShloMosaic.Lib.ValueLayout
import Idealize.ShloMosaic.Lib.StableHlo.Run

noncomputable section

namespace Cert.Gate.Kernel

open Cert.KernelIdeal Cert.KernelIdeal.Gen Idealize.ShloMosaic Idealize.ShloMosaic.TcCoe Idealize.SL.Sem
open Idealize.ShloMosaic.ValueIdx Cert.Gate
open Idealize.ShloMosaic.Pipeline (Dat)

variable (m : (ℓ : Loc nD τ sig) → Buf (Elt Ideal) ℓ) (ρ : Dev nD → PrngReg)

/-- The gates of the argument arrays as launched on core `c`. -/
abbrev result (c : Dev nD) : SO.Idx → EReal :=
  gates (m ((c : Thread nD τ).loc main_arg0)) (m ((c : Thread nD τ).loc main_arg1)) (m ((c : Thread nD τ).loc main_arg2))
    (m ((c : Thread nD τ).loc main_arg3))

theorem hz : (![0, 0] : Fin 2 → Nat) = fun _ => 0 := funext fun a => by fin_cases a <;> rfl

/-- The block indices over the grid, decided: the token windows (`x`, `z`, the output) are at block `(t, 0)`, the weight and
    bias windows at block `(0, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Token `1024 t + p`: row `p` of point `t`'s blocks. -/
abbrev rowOf (t : Fin cfg0.N) (p : Fin 1024) : Fin 8192 :=
  ⟨t.val * 1024 + p.val, by have ht : t.val < 8 := t.isLt; have := p.isLt; omega⟩

/-- The bias window's array, when the region is entered, is the bias cast to one row. -/
theorem bias_arr (c : Dev nD) :
    (V m c main_v0 : S1x64.Idx → EReal) = shapeCast S1x64 (m ((c : Thread nD τ).loc main_arg3)) Facts₀.shapeCasts_S64_S1x64 := by
  dsimp only [Gen.V, Gen.hostOps0]
  after_results
  rfl

/-- Row `p` of point `t`'s block of `x` is row `1024 t + p` of `x`. -/
theorem x_block (c : Dev nD) (t : Fin cfg0.N) (p : Fin 1024) (k : Fin 3072) :
    iblk m c 0 t (ix2 p k) = m ((c : Thread nD τ).loc main_arg0) (ix2 (rowOf t p) k) := by
  show V m c main_arg0 (((cfg0.win 0).blk t).view.emb (ix2 p k)) = _
  rw [V_main_arg0]
  refine congrArg _ (funext fun a => Fin.ext ?_)
  obtain ⟨e0, e1, -⟩ := idx_facts t
  match a with
  | ⟨0, _⟩ => show win0_0.index t (0 : Fin 2) * 1024 + 1 * p.val = t.val * 1024 + p.val; omega
  | ⟨1, _⟩ => show win0_0.index t (1 : Fin 2) * 3072 + 1 * k.val = k.val; omega

/-- Row `p` of point `t`'s block of `z` is row `1024 t + p` of `z`. -/
theorem z_block (c : Dev nD) (t : Fin cfg0.N) (p : Fin 1024) (k : Fin 768) :
    iblk m c 1 t (ix2 p k) = m ((c : Thread nD τ).loc main_arg1) (ix2 (rowOf t p) k) := by
  show V m c main_arg1 (((cfg0.win 1).blk t).view.emb (ix2 p k)) = _
  rw [V_main_arg1]
  refine congrArg _ (funext fun a => Fin.ext ?_)
  obtain ⟨-, -, e2, e3, -⟩ := idx_facts t
  match a with
  | ⟨0, _⟩ => show win0_1.index t (0 : Fin 2) * 1024 + 1 * p.val = t.val * 1024 + p.val; omega
  | ⟨1, _⟩ => show win0_1.index t (1 : Fin 2) * 768 + 1 * k.val = k.val; omega

/-- The body's first load of `W`'s block reads rows 0 … 3071 of `W`. -/
theorem wx_block (c : Dev nD) (t : Fin cfg0.N) (k : Fin 3072) (e : Fin 64) :
    View.ld (iblk m c 2 t) r0_1 (ix2 k e) = m ((c : Thread nD τ).loc main_arg2) (ix2 (wLo k) e) := by
  show V m c main_arg2 (((cfg0.win 2).blk t).view.emb (r0_1.emb (ix2 k e))) = _
  rw [V_main_arg2]
  refine congrArg _ (funext fun a => Fin.ext ?_)
  obtain ⟨-, -, -, -, e4, e5, -⟩ := idx_facts t
  match a with
  | ⟨0, _⟩ => show win0_2.index t (0 : Fin 2) * 3840 + 1 * (0 + 1 * k.val) = k.val; omega
  | ⟨1, _⟩ => show win0_2.index t (1 : Fin 2) * 64 + 1 * (0 + 1 * e.val) = e.val; omega

/-- The body's second load of `W`'s block reads rows 3072 … 3839 of `W`. -/
theorem wz_block (c : Dev nD) (t : Fin cfg0.N) (k : Fin 768) (e : Fin 64) :
    View.ld (iblk m c 2 t) r0_3 (ix2 k e) = m ((c : Thread nD τ).loc main_arg2) (ix2 (wHi k) e) := by
  show V m c main_arg2 (((cfg0.win 2).blk t).view.emb (r0_3.emb (ix2 k e))) = _
  rw [V_main_arg2]
  refine congrArg _ (funext fun a => Fin.ext ?_)
  obtain ⟨-, -, -, -, e4, e5, -⟩ := idx_facts t
  match a with
  | ⟨0, _⟩ => show win0_2.index t (0 : Fin 2) * 3840 + 1 * (3072 + 1 * k.val) = 3072 + k.val; omega
  | ⟨1, _⟩ => show win0_2.index t (1 : Fin 2) * 64 + 1 * (0 + 1 * e.val) = e.val; omega

/-- The bias window's block is the bias as one row. -/
theorem b_block (c : Dev nD) (t : Fin cfg0.N) (e : Fin 64) :
    iblk m c 3 t (ix2 (0 : Fin 1) e) = m ((c : Thread nD τ).loc main_arg3) (ix1 e) := by
  show (V m c main_v0 : S1x64.Idx → EReal) (((cfg0.win 3).blk t).view.emb (ix2 (0 : Fin 1) e)) = _
  rw [bias_arr]
  obtain ⟨-, -, -, -, -, -, e6, e7, -⟩ := idx_facts t
  refine (congrArg _ (funext fun a => Fin.ext ?_)).trans (shapeCast_a_1a_apply _ _ (0 : Fin 1) e)
  match a with
  | ⟨0, _⟩ => show win0_3.index t (0 : Fin 2) * 1 + 1 * 0 = 0; omega
  | ⟨1, _⟩ => show win0_3.index t (1 : Fin 2) * 64 + 1 * e.val = e.val; omega

/-- What point `t` writes back is block `t` of the gates. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero hz]
  simp only [View.ld_unit_zero (S := S1024x3072) hz, View.ld_unit_zero (S := S1024x768) hz, View.ld_unit_zero (S := S1x64) hz]
  funext j
  obtain ⟨p, q, rfl⟩ : ∃ (p : Fin 1024) (q : Fin 64), j = ix2 p q := ⟨j 0, j 1, eq_ix2 j⟩
  show k0_pay1 (F := Ideal) (iblk m c 0 t) (View.ld (iblk m c 2 t) r0_1) (iblk m c 1 t) (View.ld (iblk m c 2 t) r0_3) (iblk m c 3 t) (ix2 p q)
    = result m c (((cfg0.win 4).blk t).view.emb (ix2 p q))
  refine (Block.block_value (m ((c : Thread nD τ).loc main_arg0)) (m ((c : Thread nD τ).loc main_arg1))
    (m ((c : Thread nD τ).loc main_arg2)) (m ((c : Thread nD τ).loc main_arg3))
    (iblk m c 0 t) (View.ld (iblk m c 2 t) r0_1) (iblk m c 1 t) (View.ld (iblk m c 2 t) r0_3) (iblk m c 3 t) (rowOf t p) p
    (x_block m c t p) (z_block m c t p) (wx_block m c t) (wz_block m c t) (b_block m c t) q).trans ?_
  refine congrArg (result m c) (funext fun a => Fin.ext ?_)
  obtain ⟨-, -, -, -, -, -, -, -, e8, e9⟩ := idx_facts t
  match a with
  | ⟨0, _⟩ => show t.val * 1024 + p.val = win0_4.index t (0 : Fin 2) * 1024 + 1 * p.val; omega
  | ⟨1, _⟩ => show q.val = win0_4.index t (1 : Fin 2) * 64 + 1 * q.val; omega

/-- An index of the result array is in point `t`'s block iff each coordinate is in the block's range on its axis. -/
theorem mem_blk (t : Fin cfg0.N) (i : S8192x64.Idx) :
    i ∈ ((cfg0.win 4).blk t).view.set ↔ ∀ a : Fin 2, win0_4.index t a * S1024x64.size a ≤ (i a).val ∧ (i a).val < win0_4.index t a * S1024x64.size a + S1024x64.size a := by
  show i ∈ ((View.whole main_v1).slice (win0_4.rect t)).set ↔ _
  rw [View.set_slice_whole, Rect.mem_set_unit]
  exact Iff.rfl

/-- The 8 output blocks cover the array: row `r` lies in the block of point `r / 1024`. -/
theorem cover (i : S8192x64.Idx) : ∃ t : Fin cfg0.N, (cfg0.win 4).flush t = true ∧ i ∈ ((cfg0.win 4).blk t).view.set := by
  have hi0 : (i 0).val < 8192 := (i 0).isLt
  have hi1 : (i 1).val < 64 := (i 1).isLt
  obtain ⟨t, ht⟩ : ∃ t : Fin cfg0.N, t.val = (i 0).val / 1024 := ⟨⟨(i 0).val / 1024, by show (i 0).val / 1024 < 8; omega⟩, rfl⟩
  refine ⟨t, flush0_4 t, ?_⟩
  rw [mem_blk]
  obtain ⟨-, -, -, -, -, -, -, -, e8, e9⟩ := idx_facts t
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 64 ≤ (i 1).val ∧ (i 1).val < win0_4.index t (1 : Fin 2) * 64 + 64; omega

/-- After the run the result array holds the gates. -/
theorem final (c : Dev nD) : (dats m 0 c).arrAt 4 cfg0.N = result m c :=
  (dats m 0 c).arrAt_eq_of_cover 4 (result m c) (fun t _ => flushed_eq m c t) cover

/-- Every weakly fair execution of the idealized kernel ends with the result array at the gates of the arguments and the
    arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.Gate.Kernel

end
-- ==== Proof.lean ====
/-
  The gating network of a mixture of experts: `gates = softmax (concat [x, z] · W + b)` over the 64 experts, for 8192
  tokens. The kernel never forms the concatenation: on each block of 1024 tokens it multiplies `x`'s block with the
  first 3072 rows of `W` and `z`'s block with the last 768 rows, adds the two products and the bias, and takes a
  numerically stable softmax of each row. The reference concatenates, multiplies once, adds the bias and calls
  jax's softmax.

  Over the extended reals both compute the function `Cert.Gate.gates` (Proof/GateSpec.lean): a sum over
  3840 = 3072 + 768 indices is the sum over the first 3072 plus the sum over the last 768, in any commutative additive
  monoid; jax's extra `max` with minus infinity changes nothing; the rest is the same operations in the same order.
  No finiteness of the inputs is used. Proof/GateRef.lean reads the reference's run at an index, Proof/GateBlock.lean
  the kernel's body on one block, Proof/GateKernel.lean puts the 8 blocks together; Proof/LibKeepdims.lean holds the
  general index lemmas for row reductions kept as a column and broadcast back.

  The two kernel frames are the generated frame certificates; the reference's frame is its generated run with the
  result dropped; the idealization rewrote nothing, so `preserves` is `True`.
-/
import proofs.«119151_g46437186404428_cont_8to1_c_839_18_alg».proof.Defs
import proofs.«119151_g46437186404428_cont_8to1_c_839_18_alg».proof.Proof.Gen.Kernel
import proofs.«119151_g46437186404428_cont_8to1_c_839_18_alg».proof.Proof.Gen.Kernel.Skeleton
import proofs.«119151_g46437186404428_cont_8to1_c_839_18_alg».proof.Proof.Gen.Kernel.Launch
import proofs.«119151_g46437186404428_cont_8to1_c_839_18_alg».proof.Proof.Gen.Kernel.Points
import proofs.«119151_g46437186404428_cont_8to1_c_839_18_alg».proof.Proof.Gen.Kernel.Frame
import proofs.«119151_g46437186404428_cont_8to1_c_839_18_alg».proof.Proof.Gen.KernelIdeal
import proofs.«119151_g46437186404428_cont_8to1_c_839_18_alg».proof.Proof.Gen.KernelIdeal.Skeleton
import proofs.«119151_g46437186404428_cont_8to1_c_839_18_alg».proof.Proof.Gen.KernelIdeal.Launch
import proofs.«119151_g46437186404428_cont_8to1_c_839_18_alg».proof.Proof.Gen.KernelIdeal.Points
import proofs.«119151_g46437186404428_cont_8to1_c_839_18_alg».proof.Proof.Gen.KernelIdeal.Frame
import proofs.«119151_g46437186404428_cont_8to1_c_839_18_alg».proof.Proof.Gen.ReferenceIdeal
import proofs.«119151_g46437186404428_cont_8to1_c_839_18_alg».proof.Proof.Gen.Pre_finite_inputs
import proofs.«119151_g46437186404428_cont_8to1_c_839_18_alg».proof.Proof.Gen.KernelIdeal.Value
import proofs.«119151_g46437186404428_cont_8to1_c_839_18_alg».proof.Proof.Gen.ReferenceIdeal.Run
import proofs.«119151_g46437186404428_cont_8to1_c_839_18_alg».proof.Proof.Gen.ReferenceIdeal.Read
import proofs.«119151_g46437186404428_cont_8to1_c_839_18_alg».proof.Proof.GateSpec
import proofs.«119151_g46437186404428_cont_8to1_c_839_18_alg».proof.Proof.GateRef
import proofs.«119151_g46437186404428_cont_8to1_c_839_18_alg».proof.Proof.GateKernel
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the gates of those arguments in their
    result arrays: the kernel by `Gate.Kernel.run`, the reference by its run read as `Gate.Ref.result_eq`. -/
theorem algebraic : Cert.algebraic_KernelIdeal_ReferenceIdeal := by
  intro m ρ m' ρ' _ hagree
  refine ⟨fun c => Cert.Gate.Kernel.result m c, Cert.Gate.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.Gate.Ref.result_eq, (hagree c).1, (hagree c).2.1, (hagree c).2.2.1,
    (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
